-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S9x4096 : Shape := ⟨2, ![9, 4096]⟩
abbrev S1024 : Shape := ⟨1, ![1024]⟩
abbrev S8x4096 : Shape := ⟨2, ![8, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S9x4096 : S_.BroadcastsInDim S9x4096 (![] : Fin 0 → Fin S9x4096.rank)
  reducesTo_S9x4096_S_d0_1 : S9x4096.ReducesTo [0, 1] S_
  bcast_S_S1024 : S_.BroadcastsInDim S1024 (![] : Fin 0 → Fin S1024.rank)
  reducesTo_S1024_S_d0 : S1024.ReducesTo [0] S_
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S8x4096 .f32) (main_arg5 : FVec F S8x4096 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8x4096 .f32 := Host.absf main_arg4
  let main_cst_6 : FVec F S_ .f32 := constant S_ .f32 0x7F800000#32
  let main_v20 : FVec F S8x4096 .f32 := broadcastInDim S8x4096 ![] bcast_S_S8x4096 main_cst_6
  let main_v21 : IVec S8x4096 1 := cmpf .olt main_v19 main_v20
  let main_c_7 : IVec S_ 1 := constantI S_ 1 1#1
  let main_v22 : IVec S_ 1 := (fun x v => Host.reduce IntOp.andi x v reducesTo_S8x4096_S_d0_1 h_S_) main_v21 main_c_7
  let main_v23 : IVec S_ 1 := andi main_v18 main_v22
  let main_v24 : FVec F S8x4096 .f32 := Host.absf main_arg5
  let main_cst_8 : FVec F S_ .f32 := constant S_ .f32 0x7F800000#32
  let main_v25 : FVec F S8x4096 .f32 := broadcastInDim S8x4096 ![] bcast_S_S8x4096 main_cst_8
  let main_v26 : IVec S8x4096 1 := cmpf .olt main_v24 main_v25
  let main_c_9 : IVec S_ 1 := constantI S_ 1 1#1
  let main_v27 : IVec S_ 1 := (fun x v => Host.reduce IntOp.andi x v reducesTo_S8x4096_S_d0_1 h_S_) main_v26 main_c_9
  let main_v28 : IVec S_ 1 := andi main_v23 main_v27
  main_v28

def fn {F : FTy → Type} [FloatOps F] (main_arg0 : FVec F S8192x1024 .f32) (main_arg1 : FVec F S4096x1024 .f32) (main_arg2 : FVec F S9x4096 .f32) (main_arg3 : FVec F S1024 .f32) (main_arg4 : FVec F S8x4096 .f32) (main_arg5 : FVec F S8x4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S9x4096 .f32 := Host.absf main_arg2
  let main_cst_2 : FVec F S_ .f32 := constant S_ .f32 0x7F800000#32
  let main_v10 : FVec F S9x4096 .f32 := broadcastInDim S9x4096 ![] bcast_S_S9x4096 main_cst_2
  let main_v11 : IVec S9x4096 1 := cmpf .olt main_v9 main_v10
  let main_c_3 : IVec S_ 1 := constantI S_ 1 1#1
  let main_v12 : IVec S_ 1 := (fun x v => Host.reduce IntOp.andi x v reducesTo_S9x4096_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8192x1024 : Shape := ⟨2, ![8192, 1024]⟩
abbrev S4096x1024 : Shape := ⟨2, ![4096, 1024]⟩
abbrev S9x4096 : Shape := ⟨2, ![9, 4096]⟩
abbrev S1024 : Shape := ⟨1, ![1024]⟩
abbrev S8x4096 : Shape := ⟨2, ![8, 4096]⟩
abbrev S1x1024 : Shape := ⟨2, ![1, 1024]⟩
abbrev S512x1024 : Shape := ⟨2, ![512, 1024]⟩
abbrev S512x4096 : Shape := ⟨2, ![512, 4096]⟩
abbrev S1x4096 : Shape := ⟨2, ![1, 4096]⟩
abbrev S4096 : Shape := ⟨1, ![4096]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S9x4096, .f32⟩
  | .hbm, ⟨3, _⟩ => ⟨S1024, .f32⟩
  | .hbm, ⟨4, _⟩ => ⟨S8x4096, .f32⟩
  | .hbm, ⟨5, _⟩ => ⟨S8x4096, .f32⟩
  | .hbm, ⟨6, _⟩ => ⟨S8192x1024, .bf16⟩
  | .hbm, ⟨7, _⟩ => ⟨S4096x1024, .bf16⟩
  | .hbm, ⟨8, _⟩ => ⟨S1x1024, .f32⟩
  | .hbm, ⟨9, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S9x4096, .f32⟩
  | .local _ .vmem, ⟨4, _⟩ => ⟨S8x4096, .f32⟩
  | .local _ .vmem, ⟨5, _⟩ => ⟨S8x4096, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S9x4096_S9x4096_0_0 : ∀ a, (![0, 0] : Fin 2 → Nat) a + S9x4096.size a ≤ S9x4096.size a
  h_S9x4096 : 0 < S9x4096.numel
  inb_S8x4096_S8x4096_0_0 : ∀ a, (![0, 0] : Fin 2 → Nat) a + S8x4096.size a ≤ S8x4096.size a
  h_S8x4096 : 0 < S8x4096.numel
  slices_S8x4096_o0_0_S1x4096 : S8x4096.Slices ![0, 0] S1x4096
  shapeCasts_S1x4096_S4096 : S1x4096.ShapeCasts S4096
  slices_S9x4096_o0_0_S1x4096 : S9x4096.Slices ![0, 0] S1x4096
  shapeCasts_S4096_S1x4096 : S4096.ShapeCasts S1x4096
  broadcasts_S1x4096_S512x4096 : S1x4096.Broadcasts S512x4096
  slices_S8x4096_o1_0_S1x4096 : S8x4096.Slices ![1, 0] S1x4096
  slices_S9x4096_o1_0_S1x4096 : S9x4096.Slices ![1, 0] S1x4096
  slices_S8x4096_o2_0_S1x4096 : S8x4096.Slices ![2, 0] S1x4096
  slices_S9x4096_o2_0_S1x4096 : S9x4096.Slices ![2, 0] S1x4096
  slices_S8x4096_o3_0_S1x4096 : S8x4096.Slices ![3, 0] S1x4096
  slices_S9x4096_o3_0_S1x4096 : S9x4096.Slices ![3, 0] S1x4096
  slices_S8x4096_o4_0_S1x4096 : S8x4096.Slices ![4, 0] S1x4096
  slices_S9x4096_o4_0_S1x4096 : S9x4096.Slices ![4, 0] S1x4096
  slices_S8x4096_o5_0_S1x4096 : S8x4096.Slices ![5, 0] S1x4096
  slices_S9x4096_o5_0_S1x4096 : S9x4096.Slices ![5, 0] S1x4096
  slices_S8x4096_o6_0_S1x4096 : S8x4096.Slices ![6, 0] S1x4096
  slices_S9x4096_o6_0_S1x4096 : S9x4096.Slices ![6, 0] S1x4096
  slices_S8x4096_o7_0_S1x4096 : S8x4096.Slices ![7, 0] S1x4096
  slices_S9x4096_o7_0_S1x4096 : S9x4096.Slices ![7, 0] S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S4096x1024_S512x4096_1_1_0_0_n_n_wf : DotDims.WF S512x1024 S4096x1024 S512x4096 [1] [1] [0] [0] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x4096.size a ≤ S9x4096.size a
  hwx0_2 : ∀ i : grid0.Coords, EltTy.bits .f32 = 32 ∨ (Rect.block (s := S9x4096) S9x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S8x4096.size a
  hwx0_3 : ∀ i : grid0.Coords, EltTy.bits .f32 = 32 ∨ (Rect.block (s := S8x4096) S8x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x4096.size a ≤ S8x4096.size a
  hwx0_4 : ∀ i : grid0.Coords, EltTy.bits .f32 = 32 ∨ (Rect.block (s := S8x4096) S8x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S9x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S9x4096 : Shape := ⟨2, ![9, 4096]⟩
abbrev S1024 : Shape := ⟨1, ![1024]⟩
abbrev S8x4096 : Shape := ⟨2, ![8, 4096]⟩
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S1x1024 : Shape := ⟨2, ![1, 1024]⟩

abbrev nBuf : Space → Nat
  | .hbm => 162
  | .vmem => 0
  | .smem => 0
  | _ => 0

abbrev hbmTy0_0 (i : Nat) : BufTy := match i % 128 with
  | 0 => ⟨S8192x1024, .f32⟩
  | 1 => ⟨S4096x1024, .f32⟩
  | 2 => ⟨S9x4096, .f32⟩
  | 3 => ⟨S1024, .f32⟩
  | 4 => ⟨S8x4096, .f32⟩
  | 5 => ⟨S8x4096, .f32⟩
  | 6 => ⟨S8192x4096, .f32⟩
  | 7 => ⟨S1x4096, .f32⟩
  | 8 => ⟨S4096, .f32⟩
  | 9 => ⟨S1x4096, .f32⟩
  | 10 => ⟨S4096, .f32⟩
  | 11 => ⟨S1x4096, .f32⟩
  | 12 => ⟨S8192x4096, .f32⟩
  | 13 => ⟨S8192x4096, .f32⟩
  | 14 => ⟨S1x4096, .f32⟩
  | 15 => ⟨S8192x4096, .f32⟩
  | 16 => ⟨S8192x4096, .f32⟩
  | 17 => ⟨S1x4096, .f32⟩
  | 18 => ⟨S4096, .f32⟩
  | 19 => ⟨S1x4096, .f32⟩
  | 20 => ⟨S4096, .f32⟩
  | 21 => ⟨S1x4096, .f32⟩
  | 22 => ⟨S8192x4096, .f32⟩
  | 23 => ⟨S8192x4096, .f32⟩
  | 24 => ⟨S1x4096, .f32⟩
  | 25 => ⟨S8192x4096, .f32⟩
  | 26 => ⟨S8192x4096, .f32⟩
  | 27 => ⟨S1x4096, .f32⟩
  | 28 => ⟨S4096, .f32⟩
  | 29 => ⟨S_, .f32⟩
  | 30 => ⟨S8192x4096, .f32⟩
  | 31 => ⟨S8192x4096, .f32⟩
  | 32 => ⟨S1x4096, .f32⟩
  | 33 => ⟨S8192x4096, .f32⟩
  | 34 => ⟨S8192x4096, .f32⟩
  | 35 => ⟨S8192x4096, .f32⟩
  | 36 => ⟨S1x4096, .f32⟩
  | 37 => ⟨S4096, .f32⟩
  | 38 => ⟨S1x4096, .f32⟩
  | 39 => ⟨S4096, .f32⟩
  | 40 => ⟨S1x4096, .f32⟩
  | 41 => ⟨S8192x4096, .f32⟩
  | 42 => ⟨S8192x4096, .f32⟩
  | 43 => ⟨S1x4096, .f32⟩
  | 44 => ⟨S8192x4096, .f32⟩
  | 45 => ⟨S8192x4096, .f32⟩
  | 46 => ⟨S1x4096, .f32⟩
  | 47 => ⟨S4096, .f32⟩
  | 48 => ⟨S_, .f32⟩
  | 49 => ⟨S8192x4096, .f32⟩
  | 50 => ⟨S8192x4096, .f32⟩
  | 51 => ⟨S1x4096, .f32⟩
  | 52 => ⟨S8192x4096, .f32⟩
  | 53 => ⟨S8192x4096, .f32⟩
  | 54 => ⟨S8192x4096, .f32⟩
  | 55 => ⟨S1x4096, .f32⟩
  | 56 => ⟨S4096, .f32⟩
  | 57 => ⟨S1x4096, .f32⟩
  | 58 => ⟨S4096, .f32⟩
  | 59 => ⟨S1x4096, .f32⟩
  | 60 => ⟨S8192x4096, .f32⟩
  | 61 => ⟨S8192x4096, .f32⟩
  | 62 => ⟨S1x4096, .f32⟩
  | 63 => ⟨S8192x4096, .f32⟩
  | 64 => ⟨S8192x4096, .f32⟩
  | 65 => ⟨S1x4096, .f32⟩
  | 66 => ⟨S4096, .f32⟩
  | 67 => ⟨S_, .f32⟩
  | 68 => ⟨S8192x4096, .f32⟩
  | 69 => ⟨S8192x4096, .f32⟩
  | 70 => ⟨S1x4096, .f32⟩
  | 71 => ⟨S8192x4096, .f32⟩
  | 72 => ⟨S8192x4096, .f32⟩
  | 73 => ⟨S8192x4096, .f32⟩
  | 74 => ⟨S1x4096, .f32⟩
  | 75 => ⟨S4096, .f32⟩
  | 76 => ⟨S1x4096, .f32⟩
  | 77 => ⟨S4096, .f32⟩
  | 78 => ⟨S1x4096, .f32⟩
  | 79 => ⟨S8192x4096, .f32⟩
  | 80 => ⟨S8192x4096, .f32⟩
  | 81 => ⟨S1x4096, .f32⟩
  | 82 => ⟨S8192x4096, .f32⟩
  | 83 => ⟨S8192x4096, .f32⟩
  | 84 => ⟨S1x4096, .f32⟩
  | 85 => ⟨S4096, .f32⟩
  | 86 => ⟨S_, .f32⟩
  | 87 => ⟨S8192x4096, .f32⟩
  | 88 => ⟨S8192x4096, .f32⟩
  | 89 => ⟨S1x4096, .f32⟩
  | 90 => ⟨S8192x4096, .f32⟩
  | 91 => ⟨S8192x4096, .f32⟩
  | 92 => ⟨S8192x4096, .f32⟩
  | 93 => ⟨S1x4096, .f32⟩
  | 94 => ⟨S4096, .f32⟩
  | 95 => ⟨S1x4096, .f32⟩
  | 96 => ⟨S4096, .f32⟩
  | 97 => ⟨S1x4096, .f32⟩
  | 98 => ⟨S8192x4096, .f32⟩
  | 99 => ⟨S8192x4096, .f32⟩
  | 100 => ⟨S1x4096, .f32⟩
  | 101 => ⟨S8192x4096, .f32⟩
  | 102 => ⟨S8192x4096, .f32⟩
  | 103 => ⟨S1x4096, .f32⟩
  | 104 => ⟨S4096, .f32⟩
  | 105 => ⟨S_, .f32⟩
  | 106 => ⟨S8192x4096, .f32⟩
  | 107 => ⟨S8192x4096, .f32⟩
  | 108 => ⟨S1x4096, .f32⟩
  | 109 => ⟨S8192x4096, .f32⟩
  | 110 => ⟨S8192x4096, .f32⟩
  | 111 => ⟨S8192x4096, .f32⟩
  | 112 => ⟨S1x4096, .f32⟩
  | 113 => ⟨S4096, .f32⟩
  | 114 => ⟨S1x4096, .f32⟩
  | 115 => ⟨S4096, .f32⟩
  | 116 => ⟨S1x4096, .f32⟩
  | 117 => ⟨S8192x4096, .f32⟩
  | 118 => ⟨S8192x4096, .f32⟩
  | 119 => ⟨S1x4096, .f32⟩
  | 120 => ⟨S8192x4096, .f32⟩
  | 121 => ⟨S8192x4096, .f32⟩
  | 122 => ⟨S1x4096, .f32⟩
  | 123 => ⟨S4096, .f32⟩
  | 124 => ⟨S_, .f32⟩
  | 125 => ⟨S8192x4096, .f32⟩
  | 126 => ⟨S8192x4096, .f32⟩
  | 127 => ⟨S1x4096, .f32⟩
  | _ => ⟨S8192x1024, .f32⟩

abbrev hbmTy0_1 (i : Nat) : BufTy := match i % 128 with
  | 0 => ⟨S8192x4096, .f32⟩
  | 1 => ⟨S8192x4096, .f32⟩
  | 2 => ⟨S8192x4096, .f32⟩
  | 3 => ⟨S1x4096, .f32⟩
  | 4 => ⟨S4096, .f32⟩
  | 5 => ⟨S1x4096, .f32⟩
  | 6 => ⟨S4096, .f32⟩
  | 7 => ⟨S1x4096, .f32⟩
  | 8 => ⟨S8192x4096, .f32⟩
  | 9 => ⟨S8192x4096, .f32⟩
  | 10 => ⟨S1x4096, .f32⟩
  | 11 => ⟨S8192x4096, .f32⟩
  | 12 => ⟨S8192x4096, .f32⟩
  | 13 => ⟨S1x4096, .f32⟩
  | 14 => ⟨S4096, .f32⟩
  | 15 => ⟨S_, .f32⟩
  | 16 => ⟨S8192x4096, .f32⟩
  | 17 => ⟨S8192x4096, .f32⟩
  | 18 => ⟨S1x4096, .f32⟩
  | 19 => ⟨S8192x4096, .f32⟩
  | 20 => ⟨S8192x4096, .f32⟩
  | 21 => ⟨S8192x4096, .f32⟩
  | 22 => ⟨S1x4096, .f32⟩
  | 23 => ⟨S4096, .f32⟩
  | 24 => ⟨S_, .f32⟩
  | 25 => ⟨S8192x4096, .f32⟩
  | 26 => ⟨S8192x4096, .f32⟩
  | 27 => ⟨S1x4096, .f32⟩
  | 28 => ⟨S8192x4096, .f32⟩
  | 29 => ⟨S8192x4096, .f32⟩
  | 30 => ⟨S8192x1024, .f32⟩
  | 31 => ⟨S1x1024, .f32⟩
  | 32 => ⟨S8192x1024, .f32⟩
  | 33 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_cst : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_call1_cst : Ref sig .tc := ⟨.hbm, 48, rfl⟩
abbrev main_call1_v0 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_call2_cst : Ref sig .tc := ⟨.hbm, 67, rfl⟩
abbrev main_call2_v0 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_call3_cst : Ref sig .tc := ⟨.hbm, 86, rfl⟩
abbrev main_call3_v0 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_call4_cst : Ref sig .tc := ⟨.hbm, 105, rfl⟩
abbrev main_call4_v0 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_call5_cst : Ref sig .tc := ⟨.hbm, 124, rfl⟩
abbrev main_call5_v0 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_call6_cst : Ref sig .tc := ⟨.hbm, 143, rfl⟩
abbrev main_call6_v0 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_call7_cst : Ref sig .tc := ⟨.hbm, 152, rfl⟩
abbrev main_call7_v0 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩

abbrev nD : Nat := 1
abbrev τ : Topo := Topo.v7x

variable {F : FTy → Type} [FloatOps F]

class Facts₀ : Prop where
  slices_S8x4096_S1x4096_0_0 : S8x4096.Slices ![0, 0] S1x4096
  shapeCasts_S1x4096_S4096 : S1x4096.ShapeCasts S4096
  slices_S9x4096_S1x4096_0_0 : S9x4096.Slices ![0, 0] S1x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8x4096_S1x4096_1_0 : S8x4096.Slices ![1, 0] S1x4096
  slices_S9x4096_S1x4096_1_0 : S9x4096.Slices ![1, 0] S1x4096
  bcast_S_S8192x4096 : S_.BroadcastsInDim S8192x4096 (![] : Fin 0 → Fin S8192x4096.rank)
  slices_S8x4096_S1x4096_2_0 : S8x4096.Slices ![2, 0] S1x4096
  slices_S9x4096_S1x4096_2_0 : S9x4096.Slices ![2, 0] S1x4096
  slices_S8x4096_S1x4096_3_0 : S8x4096.Slices ![3, 0] S1x4096
  slices_S9x4096_S1x4096_3_0 : S9x4096.Slices ![3, 0] S1x4096
  slices_S8x4096_S1x4096_4_0 : S8x4096.Slices ![4, 0] S1x4096
  slices_S9x4096_S1x4096_4_0 : S9x4096.Slices ![4, 0] S1x4096
  slices_S8x4096_S1x4096_5_0 : S8x4096.Slices ![5, 0] S1x4096
  slices_S9x4096_S1x4096_5_0 : S9x4096.Slices ![5, 0] S1x4096
  slices_S8x4096_S1x4096_6_0 : S8x4096.Slices ![6, 0] S1x4096
  slices_S9x4096_S1x4096_6_0 : S9x4096.Slices ![6, 0] S1x4096
  slices_S8x4096_S1x4096_7_0 : S8x4096.Slices ![7, 0] S1x4096
  slices_S9x4096_S1x4096_7_0 : S9x4096.Slices ![7, 0] S1x4096
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S4096x1024_S8192x4096_1_1_0_0_n_n_wf : DotDims.WF S8192x1024 S4096x1024 S8192x4096 [1] [1] [0] [0] [] []
  dot_S8192x4096_S4096x1024_S8192x1024_1_0_0_1_n_n_wf : DotDims.WF S8192x4096 S4096x1024 S8192x1024 [1] [0] [0] [1] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.KernelReads.lean ====
/-
  The kernel body's layout operations and its two matrix products, read at an index, over the extended reals.

  * A row of a small table reaches the [512,4096] tile as  slice [1,4096] → cast [4096] → cast [1,4096] → broadcast:
    at (p,e) this is the table's entry (j,e), whatever the tile row p.
  * bias_last reaches the [512,1024] tile as a cast of the [1,1024] block to itself and a broadcast: at (p,q) it is entry (0,q).
  * The first product contracts axis 1 of both operands:  (x · Wᵀ)(p,e) = Σ_k x(p,k) · W(e,k).
  * The second contracts axis 1 of the left with axis 0 of the right:  (z · W)(p,q) = Σ_e z(p,e) · W(e,q).
  Both products accumulate into the zero tile, so nothing but the sum is left.
-/
import proofs.«100087_j86122684220072_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- A one-row slice at row offset `j` of a table with `R` rows exists only for `j < R`. -/
theorem row_lt {R j : Nat} (hs : (⟨2, ![R, 4096]⟩ : Shape).Slices ![j, 0] S1x4096) : j < R := by
  obtain ⟨h, hb⟩ := hs
  have := hb 0
  have e1 : (S1x4096.size ((0 : Fin 2).cast h.symm)) = 1 := rfl
  have e2 : (⟨2, ![R, 4096]⟩ : Shape).size 0 = R := rfl
  have e3 : (![j, 0] : Fin 2 → Nat) 0 = j := rfl
  omega

/-- Row `j` of a table, sliced out, flattened, unflattened and broadcast over the 512 rows of the tile, read at (p,e). -/
theorem tile_row_apply {R j : Nat} {α : Type} (v : (⟨2, ![R, 4096]⟩ : Shape).Idx → α)
    (hs : (⟨2, ![R, 4096]⟩ : Shape).Slices ![j, 0] S1x4096) (h1 : S1x4096.ShapeCasts S4096) (h2 : S4096.ShapeCasts S1x4096)
    (hb : S1x4096.Broadcasts S512x4096) (p : Fin 512) (e : Fin 4096) :
    broadcastTo S512x4096 (shapeCast S1x4096 (shapeCast S4096 (extractStridedSlice S1x4096 ![j, 0] v hs) h1) h2) hb (ix2 p e)
      = v (ix2 ⟨j, row_lt hs⟩ e) := by
  refine (broadcastTo_apply _ hb (ix2 p e) (ix2 (0 : Fin 1) e) (fun a => ?_)).trans ?_
  · match a with
    | ⟨0, _⟩ => rfl
    | ⟨1, _⟩ => show e.val = if (4096 : Nat) = 1 then 0 else e.val; rw [if_neg (by decide)]
  refine (shapeCast_apply _ h2 (ix2 (0 : Fin 1) e) (ix1 e) ?_).trans ?_
  · rw [Shape.rowMajor_val_one, Shape.rowMajor_val_two]; show e.val = 0 * 4096 + e.val; omega
  refine (shapeCast_apply _ h1 (ix1 e) (ix2 (0 : Fin 1) e) ?_).trans ?_
  · rw [Shape.rowMajor_val_one, Shape.rowMajor_val_two]; show 0 * 4096 + e.val = e.val; omega
  exact extractStridedSlice_apply ![j, 0] v hs (ix2 (0 : Fin 1) e) (ix2 ⟨j, row_lt hs⟩ e) (fun a => match a with
    | ⟨0, _⟩ => by show j = j + 0; omega
    | ⟨1, _⟩ => by show e.val = 0 + e.val; omega)

/-- The [1,1024] block cast to itself and broadcast over the 512 rows of the tile, read at (p,q). -/
theorem tile_last_apply {α : Type} (v : S1x1024.Idx → α) (h : S1x1024.ShapeCasts S1x1024) (hb : S1x1024.Broadcasts S512x1024)
    (p : Fin 512) (q : Fin 1024) :
    broadcastTo S512x1024 (shapeCast S1x1024 v h) hb (ix2 p q) = v (ix2 (0 : Fin 1) q) := by
  rw [shapeCast_self]
  refine broadcastTo_apply _ hb (ix2 p q) (ix2 (0 : Fin 1) q) (fun a => ?_)
  match a with
  | ⟨0, _⟩ => rfl
  | ⟨1, _⟩ => show q.val = if (1024 : Nat) = 1 then 0 else q.val; rw [if_neg (by decide)]

/-! ## The first product: x · Wᵀ -/

theorem lhs1_0 (i : S512x4096.Idx) (q : dot_S512x1024_S4096x1024_S512x4096_1_1_0_0_n_n.contr.Idx) :
    (dot_S512x1024_S4096x1024_S512x4096_1_1_0_0_n_n.lhsIdx i q 0).val = (i 0).val := by
  unfold DotDims.lhsIdx
  rw [dif_neg (show ¬(0 : Fin S512x1024.rank) ∈ dot_S512x1024_S4096x1024_S512x4096_1_1_0_0_n_n.lhsBatch by decide), dif_pos (show (0 : Fin S512x1024.rank) ∈ dot_S512x1024_S4096x1024_S512x4096_1_1_0_0_n_n.lhsNonContracting by decide)]
  rfl
theorem lhs1_1 (i : S512x4096.Idx) (q : dot_S512x1024_S4096x1024_S512x4096_1_1_0_0_n_n.contr.Idx) :
    (dot_S512x1024_S4096x1024_S512x4096_1_1_0_0_n_n.lhsIdx i q 1).val = (q ⟨0, by decide⟩).val :=
  dot_S512x1024_S4096x1024_S512x4096_1_1_0_0_n_n.lhsIdx_val_of_single rfl i q
theorem rhs1_0 (i : S512x4096.Idx) (q : dot_S512x1024_S4096x1024_S512x4096_1_1_0_0_n_n.contr.Idx) :
    (dot_S512x1024_S4096x1024_S512x4096_1_1_0_0_n_n.rhsIdx i q 0).val = (i 1).val := by
  unfold DotDims.rhsIdx
  rw [dif_neg (show ¬(0 : Fin S4096x1024.rank) ∈ dot_S512x1024_S4096x1024_S512x4096_1_1_0_0_n_n.rhsBatch by decide), dif_pos (show (0 : Fin S4096x1024.rank) ∈ dot_S512x1024_S4096x1024_S512x4096_1_1_0_0_n_n.rhsNonContracting by decide)]
  rfl
theorem rhs1_1 (i : S512x4096.Idx) (q : dot_S512x1024_S4096x1024_S512x4096_1_1_0_0_n_n.contr.Idx) :
    (dot_S512x1024_S4096x1024_S512x4096_1_1_0_0_n_n.rhsIdx i q 1).val = (q ⟨0, by decide⟩).val :=
  dot_S512x1024_S4096x1024_S512x4096_1_1_0_0_n_n.rhsIdx_val_of_single rfl i q

/-- (x · Wᵀ)(p,e) = Σ_k x(p,k) · W(e,k): the contraction runs over axis 1 of both operands. -/
theorem matmul_xWt_apply (x : FVec Ideal S512x1024 .bf16) (w : FVec Ideal S4096x1024 .bf16) (p : Fin 512) (e : Fin 4096) :
    matmul dot_S512x1024_S4096x1024_S512x4096_1_1_0_0_n_n none x w (constant S512x4096 .f32 0x00000000#32) (ix2 p e)
      = ∑ k : Fin 1024, x (ix2 p k) * w (ix2 e k) := by
  simp only [matmul]
  rw [Ideal.matmul_constant_zero_apply, ← Equiv.sum_comp (ValueIdx.contrEquiv1 dot_S512x1024_S4096x1024_S512x4096_1_1_0_0_n_n 1024 rfl rfl).symm]
  refine Finset.sum_congr rfl fun k _ => ?_
  have hk := ValueIdx.contrEquiv1_symm_val dot_S512x1024_S4096x1024_S512x4096_1_1_0_0_n_n 1024 rfl rfl k
  have el : dot_S512x1024_S4096x1024_S512x4096_1_1_0_0_n_n.lhsIdx (ix2 p e) ((ValueIdx.contrEquiv1 dot_S512x1024_S4096x1024_S512x4096_1_1_0_0_n_n 1024 rfl rfl).symm k) = ix2 p k := funext fun a => Fin.ext (by
    match a with
    | ⟨0, _⟩ => exact lhs1_0 _ _
    | ⟨1, _⟩ => exact (lhs1_1 _ _).trans hk)
  have er : dot_S512x1024_S4096x1024_S512x4096_1_1_0_0_n_n.rhsIdx (ix2 p e) ((ValueIdx.contrEquiv1 dot_S512x1024_S4096x1024_S512x4096_1_1_0_0_n_n 1024 rfl rfl).symm k) = ix2 e k := funext fun a => Fin.ext (by
    match a with
    | ⟨0, _⟩ => exact rhs1_0 _ _
    | ⟨1, _⟩ => exact (rhs1_1 _ _).trans hk)
  rw [el, er]

/-! ## The second product: z · W -/

theorem lhs2_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem lhs2_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem rhs2_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem rhs2_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- (z · W)(p,q) = Σ_e z(p,e) · W(e,q): the contraction runs over axis 1 of the left operand and axis 0 of the right. -/
theorem matmul_zW_apply (z : FVec Ideal S512x4096 .bf16) (w : FVec Ideal S4096x1024 .bf16) (p : Fin 512) (q : Fin 1024) :
    matmul dot_S512x4096_S4096x1024_S512x1024_1_0_0_1_n_n none z w (constant S512x1024 .f32 0x00000000#32) (ix2 p q)
      = ∑ e : Fin 4096, z (ix2 p e) * w (ix2 e q) := by
  simp only [matmul]
  rw [Ideal.matmul_constant_zero_apply, ← Equiv.sum_comp (ValueIdx.contrEquiv1 dot_S512x4096_S4096x1024_S512x1024_1_0_0_1_n_n 4096 rfl rfl).symm]
  refine Finset.sum_congr rfl fun k _ => ?_
  have hk := ValueIdx.contrEquiv1_symm_val dot_S512x4096_S4096x1024_S512x1024_1_0_0_1_n_n 4096 rfl rfl k
  have el : dot_S512x4096_S4096x1024_S512x1024_1_0_0_1_n_n.lhsIdx (ix2 p q) ((ValueIdx.contrEquiv1 dot_S512x4096_S4096x1024_S512x1024_1_0_0_1_n_n 4096 rfl rfl).symm k) = ix2 p k := funext fun a => Fin.ext (by
    match a with
    | ⟨0, _⟩ => exact lhs2_0 _ _
    | ⟨1, _⟩ => exact (lhs2_1 _ _).trans hk)
  have er : dot_S512x4096_S4096x1024_S512x1024_1_0_0_1_n_n.rhsIdx (ix2 p q) ((ValueIdx.contrEquiv1 dot_S512x4096_S4096x1024_S512x1024_1_0_0_1_n_n 4096 rfl rfl).symm k) = ix2 k q := funext fun a => Fin.ext (by
    match a with
    | ⟨0, _⟩ => exact (rhs2_0 _ _).trans hk
    | ⟨1, _⟩ => exact rhs2_1 _ _)
  rw [el, er]

end Cert.KernelIdeal.Body

end
-- ==== Proof.Cascade.lean ====
/-
  The function both programs compute, on the extended reals.

  Inputs: x [8192,1024], W [4096,1024], biases [9,4096], alpha [8,4096], beta [8,4096], bias_last [1024].
  For a row r and a feature e let h = Σ_k x(r,k) · W(e,k). The cascade at (r,e) uses only column e of the three
  small tables:
      z₀ = β₀ · (h + b₀),     z_{n+1} = β_{n+1} · (h + b_{n+1}) + α_n · max(z_n, 0)   (n = 0 … 6),
      zf = α₇ · max(z₇, 0),
  and the result is  out(r,q) = Σ_e zf(r,e) · W(e,q) + bias_last(q).
  Row 8 of the biases is never read.  Every operation is written in the operand order both programs use, so no law of
  the extended reals beyond reading the same term is needed.
-/
import Idealize.ShloMosaic.PureOps.Ideal
import Idealize.ShloMosaic.Lib.ValueIdx

noncomputable section

namespace Cert.Cascade

open Idealize.ShloMosaic Idealize.ShloMosaic.ValueIdx
open scoped BigOperators

/-- One layer's skip term: β · (h + b). -/
def lin (β h b : EReal) : EReal := β * (h + b)

/-- One residual step: skip + α · max(z, 0). -/
def gate (skip α z : EReal) : EReal := skip + α * max z 0

variable (h : EReal) (b : Fin 9 → EReal) (a β : Fin 8 → EReal)

def z0 : EReal := lin (β 0) h (b 0)
def z1 : EReal := gate (lin (β 1) h (b 1)) (a 0) (z0 h b β)
def z2 : EReal := gate (lin (β 2) h (b 2)) (a 1) (z1 h b a β)
def z3 : EReal := gate (lin (β 3) h (b 3)) (a 2) (z2 h b a β)
def z4 : EReal := gate (lin (β 4) h (b 4)) (a 3) (z3 h b a β)
def z5 : EReal := gate (lin (β 5) h (b 5)) (a 4) (z4 h b a β)
def z6 : EReal := gate (lin (β 6) h (b 6)) (a 5) (z5 h b a β)
def z7 : EReal := gate (lin (β 7) h (b 7)) (a 6) (z6 h b a β)
/-- The cascade's output at one (row, feature) entry. -/
def zf : EReal := a 7 * max (z7 h b a β) 0

/-- Column `e` of a table with `R` rows and 4096 columns. -/
abbrev col {R : Nat} (v : (⟨2, ![R, 4096]⟩ : Shape).Idx → EReal) (e : Fin 4096) : Fin R → EReal := fun j => v (ix2 j e)

/-- h(r,e) = Σ_k x(r,k) · W(e,k) for a row block of `n` rows. -/
abbrev hid {n : Nat} (x : (⟨2, ![n, 1024]⟩ : Shape).Idx → EReal) (w : (⟨2, ![4096, 1024]⟩ : Shape).Idx → EReal)
    (r : Fin n) (e : Fin 4096) : EReal := ∑ k : Fin 1024, x (ix2 r k) * w (ix2 e k)

/-- The result at row `r`, column `q`, for an array (or a row block) of `n` rows; the bias is given as a function of the column. -/
def out {n : Nat} (x : (⟨2, ![n, 1024]⟩ : Shape).Idx → EReal) (w : (⟨2, ![4096, 1024]⟩ : Shape).Idx → EReal)
    (bs : (⟨2, ![9, 4096]⟩ : Shape).Idx → EReal) (al be : (⟨2, ![8, 4096]⟩ : Shape).Idx → EReal) (bl : Fin 1024 → EReal)
    (r : Fin n) (q : Fin 1024) : EReal :=
  (∑ e : Fin 4096, zf (hid x w r e) (col bs e) (col al e) (col be e) * w (ix2 e q)) + bl q

/-- The result depends on `x` only through row `r`: two arrays whose rows agree give the same entry. -/
theorem out_congr_row {n n' : Nat} (x : (⟨2, ![n, 1024]⟩ : Shape).Idx → EReal) (x' : (⟨2, ![n', 1024]⟩ : Shape).Idx → EReal)
    (w : (⟨2, ![4096, 1024]⟩ : Shape).Idx → EReal) (bs : (⟨2, ![9, 4096]⟩ : Shape).Idx → EReal)
    (al be : (⟨2, ![8, 4096]⟩ : Shape).Idx → EReal) (bl : Fin 1024 → EReal) (r : Fin n) (r' : Fin n') (q : Fin 1024)
    (hx : ∀ k : Fin 1024, x (ix2 r k) = x' (ix2 r' k)) :
    out x w bs al be bl r q = out x' w bs al be bl r' q := by
  unfold out hid
  simp only [hx]

end Cert.Cascade

end
-- ==== Proof.KernelBody.lean ====
/-
  The kernel body's one store, read at an entry (p,q) of the [512,1024] output tile, is the cascade formula of the
  tile's input blocks:  Σ_e zf(h(p,e); column e of biases, alpha, beta) · W(e,q) + bias_last(0,q),  h(p,e) = Σ_k x(p,k) · W(e,k).
  The body is a tree of pointwise operations over [512,4096] tiles between the two products; at (p,e) each pointwise
  operation is the scalar one, each broadcast table row is the table's entry in column e, and the zero tile is 0.
-/
import proofs.«100087_j86122684220072_1_alg».proof.Proof.Gen.KernelIdeal.Skeleton
import proofs.«100087_j86122684220072_1_alg».proof.Proof.KernelReads
import proofs.«100087_j86122684220072_1_alg».proof.Proof.Cascade
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Cascade
open scoped BigOperators

variable (x0 : Vec Ideal S512x1024 .bf16) (x1 : Vec Ideal S4096x1024 .bf16) (x2 : Vec Ideal S9x4096 .f32)
  (x3 x4 : Vec Ideal S8x4096 .f32) (x5 : Vec Ideal S1x1024 .f32)

/-- The weight block cast to its own shape is the block. -/
theorem pay1_eq : k0_pay1 x1 = x1 := by
  unfold k0_pay1
  exact shapeCast_self _ _

/-- The first product at (p,e). -/
theorem pay2_apply (p : Fin 512) (e : Fin 4096) : k0_pay2 x0 x1 (ix2 p e) = hid x0 x1 p e := by
  simp only [k0_pay2, pay1_eq, shapeCast_self, matmul_xWt_apply]

/-- THE BODY'S STORE at (p,q): the second product of the cascade's last tile with the weights, plus bias_last. Between the
    products every tile is read at (p,e): a pointwise operation is the scalar one there, a broadcast table row is the table's
    entry (j,e), the narrowing to bf16 changes nothing, and the zero tile is 0. -/
theorem store_apply (p : Fin 512) (q : Fin 1024) :
    k0_pay10 (k0_pay1 x1) x2 x3 x4 (k0_pay2 x0 x1) (k0_pay6 x2 x3 x4 (k0_pay2 x0 x1) (k0_pay3 x0 x1 x2 x3 x4) (k0_pay4 x0 x1 x2 x4) (k0_pay5 x3)) (k0_pay7 x2 x4 (k0_pay2 x0 x1)) (k0_pay8 x3) (k0_pay9 (F := Ideal)) x5 (ix2 p q)
      = out x0 x1 x2 x3 x4 (fun c => x5 (ix2 (0 : Fin 1) c)) p q := by
  simp only [k0_pay10, k0_pay3, k0_pay4, k0_pay5, k0_pay6, k0_pay7, k0_pay8, k0_pay9, mulf_apply, addf_apply, maximumf_apply,
    broadcast_apply, truncf_apply, tile_row_apply, tile_last_apply, pay2_apply, pay1_eq, matmul_zW_apply, Ideal.ofBits_def,
    Ideal.ofBits_zero_f32]
  rfl

end Cert.KernelIdeal.Body

end
-- ==== Proof.KernelValue.lean ====
/-
  From the kernel's blocks to its result array, at the extended reals.

  The grid has 16 points; point t stages rows 512·t … 512·t + 511 of the narrowed x and writes back the same rows of the
  result; the weights, the three tables and bias_last are staged whole at every point. So what point t writes at (p,q) is the
  cascade formula of row 512·t + p of x — the formula reads x through that one row only — and the 16 row blocks tile the
  [8192,1024] result. The region finds x and W narrowed to bf16 (no change of value here) and bias_last reshaped to [1,1024].
-/
import proofs.«100087_j86122684220072_1_alg».proof.Proof.Gen.KernelIdeal.Value
import proofs.«100087_j86122684220072_1_alg».proof.Proof.KernelBody
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen Cert.KernelIdeal.Value Cert.KernelIdeal.Body Cert.Cascade
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them, and the result as one function of them -/

abbrev xarr (c : Dev nD) : Vec Ideal S8192x1024 .bf16 := V m c main_v0
abbrev warr (c : Dev nD) : Vec Ideal S4096x1024 .bf16 := V m c main_v1
abbrev barr (c : Dev nD) : Vec Ideal S9x4096 .f32 := V m c main_arg2
abbrev aarr (c : Dev nD) : Vec Ideal S8x4096 .f32 := V m c main_arg4
abbrev garr (c : Dev nD) : Vec Ideal S8x4096 .f32 := V m c main_arg5
abbrev larr (c : Dev nD) : Vec Ideal S1x1024 .f32 := V m c main_v2

/-- The whole result array: the cascade formula of the arrays the region finds. -/
def G (c : Dev nD) : Vec Ideal S8192x1024 .f32 := fun i =>
  out (xarr m c) (warr m c) (barr m c) (aarr m c) (garr m c) (fun q => larr m c (ix2 (0 : Fin 1) q)) (i 0) (i 1)

/-! ## The index maps, decided over the 16 points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block, read off its array -/

/-- Row p of x's block at point t is row 512·t + p of x. -/
theorem xblk_apply (c : Dev nD) (t : Fin cfg0.N) (p : Fin 512) (k : Fin 1024) (r : Fin 8192) (hr : r.val = 512 * t.val + p.val) :
    (iblk m c 0 t : Vec Ideal S512x1024 .bf16) (ix2 p k) = xarr m c (ix2 r k) := by
  obtain ⟨e0, e1, -⟩ := idx_facts t
  show xarr m c (((cfg0.win 0).blk t).view.emb (ix2 p k)) = xarr m c (ix2 r k)
  refine congrArg (xarr m c) (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The weights' block is the whole array at every point. -/
theorem wblk_eq (c : Dev nD) (t : Fin cfg0.N) : (iblk m c 1 t : Vec Ideal S4096x1024 .bf16) = warr m c := by
  obtain ⟨-, -, e0, e1, -⟩ := idx_facts t
  funext y
  show warr m c (((cfg0.win 1).blk t).view.emb y) = warr m c y
  refine congrArg (warr m c) (funext fun a => Fin.ext ?_)
  match a with
  | ⟨0, _⟩ => show win0_1.index t (0 : Fin 2) * 4096 + 1 * (y 0).val = (y 0).val; rw [e0]; omega
  | ⟨1, _⟩ => show win0_1.index t (1 : Fin 2) * 1024 + 1 * (y 1).val = (y 1).val; rw [e1]; omega

/-- The biases' block is the whole table at every point. -/
theorem bblk_eq (c : Dev nD) (t : Fin cfg0.N) : (iblk m c 2 t : Vec Ideal S9x4096 .f32) = barr m c := by
  obtain ⟨-, -, -, -, e0, e1, -⟩ := idx_facts t
  funext y
  show barr m c (((cfg0.win 2).blk t).view.emb y) = barr m c y
  refine congrArg (barr m c) (funext fun a => Fin.ext ?_)
  match a with
  | ⟨0, _⟩ => show win0_2.index t (0 : Fin 2) * 9 + 1 * (y 0).val = (y 0).val; rw [e0]; omega
  | ⟨1, _⟩ => show win0_2.index t (1 : Fin 2) * 4096 + 1 * (y 1).val = (y 1).val; rw [e1]; omega

/-- alpha's block is the whole table at every point. -/
theorem ablk_eq (c : Dev nD) (t : Fin cfg0.N) : (iblk m c 3 t : Vec Ideal S8x4096 .f32) = aarr m c := by
  obtain ⟨-, -, -, -, -, -, e0, e1, -⟩ := idx_facts t
  funext y
  show aarr m c (((cfg0.win 3).blk t).view.emb y) = aarr m c y
  refine congrArg (aarr m c) (funext fun a => Fin.ext ?_)
  match a with
  | ⟨0, _⟩ => show win0_3.index t (0 : Fin 2) * 8 + 1 * (y 0).val = (y 0).val; rw [e0]; omega
  | ⟨1, _⟩ => show win0_3.index t (1 : Fin 2) * 4096 + 1 * (y 1).val = (y 1).val; rw [e1]; omega

/-- beta's block is the whole table at every point. -/
theorem gblk_eq (c : Dev nD) (t : Fin cfg0.N) : (iblk m c 4 t : Vec Ideal S8x4096 .f32) = garr m c := by
  obtain ⟨-, -, -, -, -, -, -, -, e0, e1, -⟩ := idx_facts t
  funext y
  show garr m c (((cfg0.win 4).blk t).view.emb y) = garr m c y
  refine congrArg (garr m c) (funext fun a => Fin.ext ?_)
  match a with
  | ⟨0, _⟩ => show win0_4.index t (0 : Fin 2) * 8 + 1 * (y 0).val = (y 0).val; rw [e0]; omega
  | ⟨1, _⟩ => show win0_4.index t (1 : Fin 2) * 4096 + 1 * (y 1).val = (y 1).val; rw [e1]; omega

/-- bias_last's block is the whole [1,1024] array at every point. -/
theorem lblk_eq (c : Dev nD) (t : Fin cfg0.N) : (iblk m c 5 t : Vec Ideal S1x1024 .f32) = larr m c := by
  obtain ⟨-, -, -, -, -, -, -, -, -, -, e0, e1, -⟩ := idx_facts t
  funext y
  show larr m c (((cfg0.win 5).blk t).view.emb y) = larr m c y
  refine congrArg (larr m c) (funext fun a => Fin.ext ?_)
  match a with
  | ⟨0, _⟩ => show win0_5.index t (0 : Fin 2) * 1 + 1 * (y 0).val = (y 0).val; rw [e0]; omega
  | ⟨1, _⟩ => show win0_5.index t (1 : Fin 2) * 1024 + 1 * (y 1).val = (y 1).val; rw [e1]; omega

/-! ## What a point writes back, the cover, the array -/

/-- WHAT POINT `t` WRITES BACK is block `t` of `G`. -/
theorem flushed_eq (c : Dev nD) (t : Fin cfg0.N) :
    (dats m 0 c).flushed 6 t = ((cfg0.win 6).blk t).view.read (Elt Ideal) (G m c) := by
  rw [Value.flushed6]
  unfold out0_6
  rw [View.canon_unit_zero hz]
  simp only [View.ld_unit_zero (S := S512x1024) hz, View.ld_unit_zero (S := S4096x1024) hz, View.ld_unit_zero (S := S9x4096) hz,
    View.ld_unit_zero (S := S8x4096) hz, View.ld_unit_zero (S := S1x1024) hz]
  funext y
  obtain ⟨p, q, rfl⟩ : ∃ (p : Fin 512) (q : Fin 1024), y = ix2 p q := ⟨y 0, y 1, eq_ix2 y⟩
  refine (store_apply (iblk m c 0 t) (iblk m c 1 t) (iblk m c 2 t) (iblk m c 3 t) (iblk m c 4 t) (iblk m c 5 t) p q).trans ?_
  obtain ⟨-, -, -, -, -, -, -, -, -, -, -, -, e0, e1⟩ := idx_facts t
  have hN : cfg0.N = 16 := N_0
  have ht : t.val < 16 := hN ▸ t.isLt
  have hp : p.val < 512 := p.isLt
  have hemb : ((cfg0.win 6).blk t).view.emb (ix2 p q) = (ix2 (⟨512 * t.val + p.val, by omega⟩ : Fin 8192) q : S8192x1024.Idx) := by
    funext a; apply Fin.ext
    match a with
    | ⟨0, _⟩ => show win0_6.index t (0 : Fin 2) * 512 + 1 * p.val = 512 * t.val + p.val; rw [e0]; omega
    | ⟨1, _⟩ => show win0_6.index t (1 : Fin 2) * 1024 + 1 * q.val = q.val; rw [e1]; omega
  show _ = G m c (((cfg0.win 6).blk t).view.emb (ix2 p q))
  rw [hemb, wblk_eq, bblk_eq, ablk_eq, gblk_eq, lblk_eq]
  exact out_congr_row _ _ _ _ _ _ _ p ⟨512 * t.val + p.val, by omega⟩ q (fun k => xblk_apply m c t p k _ rfl)

/-- An index of the array is in point `t`'s block iff each coordinate is in the block's range on its axis. -/
theorem mem_blk (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v3).slice (win0_6.rect t)).set ↔ _
  rw [View.set_slice_whole, Rect.mem_set_unit]
  exact Iff.rfl

/-- Row r of the result lies in the block of point r / 512. -/
theorem cover (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 16 := N_0
  have hlt : (i 0).val / 512 < cfg0.N := by rw [hN]; omega
  obtain ⟨-, -, -, -, -, -, -, -, -, -, -, -, e0, e1⟩ := idx_facts ⟨(i 0).val / 512, hlt⟩
  refine ⟨⟨(i 0).val / 512, hlt⟩, flush0_6 _, ?_⟩
  rw [mem_blk]
  intro a
  match a with
  | ⟨0, _⟩ =>
    show win0_6.index ⟨(i 0).val / 512, hlt⟩ (0 : Fin 2) * 512 ≤ (i 0).val ∧ (i 0).val < win0_6.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, hlt⟩ (1 : Fin 2) * 1024 ≤ (i 1).val ∧ (i 1).val < win0_6.index ⟨(i 0).val / 512, hlt⟩ (1 : Fin 2) * 1024 + 1024
    rw [e1]; omega

/-- THE ARRAY after the run is `G`. -/
theorem final (c : Dev nD) : (dats m 0 c).arrAt 6 cfg0.N = G m c :=
  (dats m 0 c).arrAt_eq_of_cover 6 (G m c) (fun t _ => flushed_eq m c t) cover

end Cert.KernelIdeal.Hand

end
-- ==== Proof.KernelRun.lean ====
/-
  The kernel's run, read: after the run the result array is the cascade formula of the ARGUMENT arrays.

  Before the region the host narrows x and W to bf16 — the identity on extended reals — and reshapes bias_last [1024] to
  [1,1024], whose entry (0,q) is bias_last(q); the three tables reach the region untouched. So the formula of the arrays
  the region finds is the formula of the arguments.
-/
import proofs.«100087_j86122684220072_1_alg».proof.Proof.KernelValue
import Idealize.ShloMosaic.Lib.StableHlo.Run

noncomputable section

namespace Cert.KernelIdeal.Hand

open Cert.KernelIdeal Cert.KernelIdeal.Gen Cert.KernelIdeal.Value Cert.Cascade
open Idealize.ShloMosaic Idealize.ShloMosaic.TcCoe Idealize.ShloMosaic.ValueIdx Idealize.SL.Sem

variable (m : (ℓ : Loc nD τ sig) → Buf (Elt Ideal) ℓ) (ρ : Dev nD → PrngReg)

/-- The argument arrays at their literal types. -/
abbrev xin (c : Dev nD) : Vec Ideal S8192x1024 .f32 := m ((c : Thread nD τ).loc main_arg0)
abbrev win (c : Dev nD) : Vec Ideal S4096x1024 .f32 := m ((c : Thread nD τ).loc main_arg1)
abbrev bin (c : Dev nD) : Vec Ideal S9x4096 .f32 := m ((c : Thread nD τ).loc main_arg2)
abbrev lin1 (c : Dev nD) : Vec Ideal S1024 .f32 := m ((c : Thread nD τ).loc main_arg3)
abbrev ain (c : Dev nD) : Vec Ideal S8x4096 .f32 := m ((c : Thread nD τ).loc main_arg4)
abbrev gin (c : Dev nD) : Vec Ideal S8x4096 .f32 := m ((c : Thread nD τ).loc main_arg5)

/-- The narrowed x the region finds is x. -/
theorem xarr_eq (c : Dev nD) : xarr m c = xin m c := by
  show (V m c main_v0 : S8192x1024.Idx → EReal) = _
  dsimp only [V, hostOps0]
  after_results
  rfl

/-- The narrowed W the region finds is W. -/
theorem warr_eq (c : Dev nD) : warr m c = win m c := by
  show (V m c main_v1 : S4096x1024.Idx → EReal) = _
  dsimp only [V, hostOps0]
  after_results
  rfl

theorem barr_eq (c : Dev nD) : barr m c = bin m c := V_main_arg2 m c
theorem aarr_eq (c : Dev nD) : aarr m c = ain m c := V_main_arg4 m c
theorem garr_eq (c : Dev nD) : garr m c = gin m c := V_main_arg5 m c

/-- Entry (0,q) of the reshaped bias_last is bias_last(q). -/
theorem larr_apply (c : Dev nD) (q : Fin 1024) : larr m c (ix2 (0 : Fin 1) q) = lin1 m c (ix1 q) := by
  have e : (V m c main_v2 : S1x1024.Idx → EReal) = shapeCast S1x1024 (lin1 m c) shapeCasts_S1024_S1x1024 := by
    dsimp only [V, hostOps0]
    after_results
    rfl
  show (V m c main_v2 : S1x1024.Idx → EReal) (ix2 (0 : Fin 1) q) = _
  rw [e]
  refine shapeCast_apply _ shapeCasts_S1024_S1x1024 (ix2 (0 : Fin 1) q) (ix1 q) ?_
  rw [Shape.rowMajor_val_one, Shape.rowMajor_val_two]; show q.val = 0 * 1024 + q.val; omega

/-- The result as one function of the argument arrays. -/
def result (c : Dev nD) : Vec Ideal S8192x1024 .f32 := fun i =>
  out (xin m c) (win m c) (bin m c) (ain m c) (gin m c) (fun q => lin1 m c (ix1 q)) (i 0) (i 1)

theorem G_eq (c : Dev nD) : G m c = result m c := by
  funext i
  unfold G result
  rw [xarr_eq, warr_eq, barr_eq, aarr_eq, garr_eq,
    show (fun q => larr m c (ix2 (0 : Fin 1) q)) = fun q => lin1 m c (ix1 q) from funext fun q => larr_apply m c q]

/-- THE RUN, READ: the result array ends at `result` of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (G_eq m c)), (h c).2⟩)
    (Cert.KernelIdeal.Value.run_blocks m ρ)

end Cert.KernelIdeal.Hand

end
-- ==== Proof.RefReads.lean ====
/-
  The reference program read at an entry (r,q) of its [8192,1024] result: the same cascade formula of the whole arrays,
      Σ_e zf(h(r,e); column e of biases, alpha, beta) · W(e,q) + bias_last(q),      h(r,e) = Σ_k x(r,k) · W(e,k).
  A row of a small table reaches the [8192,4096] array as  slice [1,4096] → reshape [4096] → broadcast [1,4096] → broadcast:
  at (r,e) this is the table's entry (j,e).  relu is max(·, 0) against a broadcast zero.  Each einsum is a sum of products
  over its one contracted axis.
-/
import proofs.«100087_j86122684220072_1_alg».proof.Proof.Gen.ReferenceIdeal.Read
import proofs.«100087_j86122684220072_1_alg».proof.Proof.Cascade
import Idealize.ShloMosaic.Lib.Pipeline.Value
import Idealize.ShloMosaic.Lib.ValueIdx
import Idealize.ShloMosaic.PureOps.Ideal.Laws

noncomputable section

namespace Cert.ReferenceIdeal.Rows

open Cert.ReferenceIdeal Cert.ReferenceIdeal.Read Idealize.ShloMosaic Idealize.ShloMosaic.ValueIdx Cert.Cascade
open scoped BigOperators

/-- A one-row slice at row offset `j` of a table with `R` rows exists only for `j < R`. -/
theorem row_lt {R j : Nat} (hs : (⟨2, ![R, 4096]⟩ : Shape).Slices ![j, 0] S1x4096) : j < R := by
  obtain ⟨h, hb⟩ := hs
  have := hb 0
  have e1 : (S1x4096.size ((0 : Fin 2).cast h.symm)) = 1 := rfl
  have e2 : (⟨2, ![R, 4096]⟩ : Shape).size 0 = R := rfl
  have e3 : (![j, 0] : Fin 2 → Nat) 0 = j := rfl
  omega

/-- Row `j` of a table, sliced out, flattened, given back its unit axis and broadcast over the 8192 rows, read at (r,e).
    The two broadcasts' axis maps are whatever maps the shapes admit: the extent 4096 can only go to the axis of extent 4096. -/
theorem array_row_apply {R j : Nat} {α : Type} (v : (⟨2, ![R, 4096]⟩ : Shape).Idx → α)
    (hs : (⟨2, ![R, 4096]⟩ : Shape).Slices ![j, 0] S1x4096) (hc : S1x4096.ShapeCasts S4096)
    (d1 : Fin S4096.rank → Fin S1x4096.rank) (d2 : Fin S1x4096.rank → Fin S8192x4096.rank)
    (hb1 : S4096.BroadcastsInDim S1x4096 d1) (hb2 : S1x4096.BroadcastsInDim S8192x4096 d2) (r : Fin 8192) (e : Fin 4096) :
    broadcastInDim S8192x4096 d2 hb2 (broadcastInDim S1x4096 d1 hb1 (shapeCast S4096 (extractStridedSlice S1x4096 ![j, 0] v hs) hc)) (ix2 r e)
      = v (ix2 ⟨j, row_lt hs⟩ e) := by
  have h2 : ((ix2 r e : S8192x4096.Idx) (d2 1)).val = e.val := by
    rcases hb2.2 1 with h | h
    · exact absurd h (by decide)
    · generalize d2 1 = a at h ⊢
      match a with
      | ⟨0, _⟩ => exact absurd (show (4096 : Nat) = 8192 from h) (by decide)
      | ⟨1, _⟩ => rfl
  have h1 : ((ix2 (0 : Fin 1) e : S1x4096.Idx) (d1 0)).val = e.val := by
    rcases hb1.2 0 with h | h
    · exact absurd h (by decide)
    · generalize d1 0 = a at h ⊢
      match a with
      | ⟨0, _⟩ => exact absurd (show (4096 : Nat) = 1 from h) (by decide)
      | ⟨1, _⟩ => rfl
  refine (broadcastInDim_apply d2 hb2 _ (ix2 r e) (ix2 (0 : Fin 1) e) (fun a => ?_)).trans ?_
  · match a with
    | ⟨0, _⟩ => rfl
    | ⟨1, _⟩ => show e.val = if (4096 : Nat) = 1 then 0 else _; rw [if_neg (by decide)]; exact h2.symm
  refine (broadcastInDim_apply d1 hb1 _ (ix2 (0 : Fin 1) e) (ix1 e) (fun a => ?_)).trans ?_
  · match a with
    | ⟨0, _⟩ => show e.val = if (4096 : Nat) = 1 then 0 else _; rw [if_neg (by decide)]; exact h1.symm
  refine (shapeCast_apply _ hc (ix1 e) (ix2 (0 : Fin 1) e) ?_).trans ?_
  · rw [Shape.rowMajor_val_one, Shape.rowMajor_val_two]; show 0 * 4096 + e.val = e.val; omega
  exact extractStridedSlice_apply ![j, 0] v hs (ix2 (0 : Fin 1) e) (ix2 ⟨j, row_lt hs⟩ e) (fun a => match a with
    | ⟨0, _⟩ => by show j = j + 0; omega
    | ⟨1, _⟩ => by show e.val = 0 + e.val; omega)

variable (x0 : Vec Ideal S8192x1024 .f32) (x1 : Vec Ideal S4096x1024 .f32) (x2 : Vec Ideal S9x4096 .f32)
  (x3 : Vec Ideal S1024 .f32) (x4 x5 : Vec Ideal S8x4096 .f32)

/-- The first einsum at (r,e): Σ_k x(r,k) · W(e,k). -/
theorem h_apply (r : Fin 8192) (e : Fin 4096) : val_main_v0 (F := Ideal) x0 x1 (ix2 r e) = hid x0 x1 r e := by
  rw [val_main_v0_apply]
  refine Finset.sum_congr rfl fun k _ => ?_
  have el : lidx_main_v0 (ix2 r e) k = ix2 r k := funext fun a => by match a with | ⟨0, _⟩ => rfl | ⟨1, _⟩ => rfl
  have er : ridx_main_v0 (ix2 r e) k = ix2 e k := funext fun a => by match a with | ⟨0, _⟩ => rfl | ⟨1, _⟩ => rfl
  rw [el, er]

/-- The cascade's last array at (r,e) is zf of h(r,e) and column e of the three tables: every stage between the two
    einsums is pointwise or a broadcast table row. -/
theorem cascade_apply (r : Fin 8192) (e : Fin 4096) :
    val_main_v135 (F := Ideal) x0 x1 x2 x4 x5 (ix2 r e) = zf (hid x0 x1 r e) (col x2 e) (col x4 e) (col x5 e) := by
  simp only [
    val_main_v1, val_main_v2, val_main_v3, val_main_v4, val_main_v5, val_main_v6, val_main_v7, val_main_v8, val_main_v9,
    val_main_v10, val_main_v11, val_main_v12, val_main_v13, val_main_v14, val_main_v15, val_main_v16, val_main_v17,
    val_main_v18, val_main_v19, val_main_v20, val_main_v21, val_main_v22, val_main_v23, val_main_v24, val_main_v25,
    val_main_v26, val_main_v27, val_main_v28, val_main_v29, val_main_v30, val_main_v31, val_main_v32, val_main_v33,
    val_main_v34, val_main_v35, val_main_v36, val_main_v37, val_main_v38, val_main_v39, val_main_v40, val_main_v41,
    val_main_v42, val_main_v43, val_main_v44, val_main_v45, val_main_v46, val_main_v47, val_main_v48, val_main_v49,
    val_main_v50, val_main_v51, val_main_v52, val_main_v53, val_main_v54, val_main_v55, val_main_v56, val_main_v57,
    val_main_v58, val_main_v59, val_main_v60, val_main_v61, val_main_v62, val_main_v63, val_main_v64, val_main_v65,
    val_main_v66, val_main_v67, val_main_v68, val_main_v69, val_main_v70, val_main_v71, val_main_v72, val_main_v73,
    val_main_v74, val_main_v75, val_main_v76, val_main_v77, val_main_v78, val_main_v79, val_main_v80, val_main_v81,
    val_main_v82, val_main_v83, val_main_v84, val_main_v85, val_main_v86, val_main_v87, val_main_v88, val_main_v89,
    val_main_v90, val_main_v91, val_main_v92, val_main_v93, val_main_v94, val_main_v95, val_main_v96, val_main_v97,
    val_main_v98, val_main_v99, val_main_v100, val_main_v101, val_main_v102, val_main_v103, val_main_v104, val_main_v105,
    val_main_v106, val_main_v107, val_main_v108, val_main_v109, val_main_v110, val_main_v111, val_main_v112, val_main_v113,
    val_main_v114, val_main_v115, val_main_v116, val_main_v117, val_main_v118, val_main_v119, val_main_v120, val_main_v121,
    val_main_v122, val_main_v123, val_main_v124, val_main_v125, val_main_v126, val_main_v127, val_main_v128, val_main_v129,
    val_main_v130, val_main_v131, val_main_v132, val_main_v133, val_main_v134, val_main_v135, val_main_call0_v0_apply,
    val_main_call0_cst_apply, val_main_call1_v0_apply, val_main_call1_cst_apply, val_main_call2_v0_apply,
    val_main_call2_cst_apply, val_main_call3_v0_apply, val_main_call3_cst_apply, val_main_call4_v0_apply,
    val_main_call4_cst_apply, val_main_call5_v0_apply, val_main_call5_cst_apply, val_main_call6_v0_apply,
    val_main_call6_cst_apply, val_main_call7_v0_apply, val_main_call7_cst_apply,
    mulf_apply, addf_apply, maximumf_apply]
  simp only [array_row_apply, h_apply, Ideal.mulf_def, Ideal.addf_def, Ideal.maximumf_def, Ideal.ofBits_def,
    Ideal.ofBits_zero_f32]
  rfl

/-- bias_last given a unit axis and broadcast over the 8192 rows, read at (r,q). -/
theorem last_apply (r : Fin 8192) (q : Fin 1024) : val_main_v138 (F := Ideal) x3 (ix2 r q) = x3 (ix1 q) := by
  rw [val_main_v138_apply, val_main_v137_apply]
  exact congrArg x3 (funext fun a => by match a with | ⟨0, _⟩ => rfl)

/-- THE REFERENCE'S RESULT at (r,q). -/
theorem result_apply (r : Fin 8192) (q : Fin 1024) :
    val_main_v139 (F := Ideal) x0 x1 x2 x3 x4 x5 (ix2 r q) = out x0 x1 x2 x4 x5 (fun c => x3 (ix1 c)) r q := by
  rw [val_main_v139_apply, val_main_v136_apply, last_apply]
  refine congrArg (· + x3 (ix1 q)) (Finset.sum_congr rfl fun e _ => ?_)
  have el : lidx_main_v136 (ix2 r q) e = ix2 r e := funext fun a => by match a with | ⟨0, _⟩ => rfl | ⟨1, _⟩ => rfl
  have er : ridx_main_v136 (ix2 r q) e = ix2 e q := funext fun a => by match a with | ⟨0, _⟩ => rfl | ⟨1, _⟩ => rfl
  rw [el, er, cascade_apply]

end Cert.ReferenceIdeal.Rows

end
-- ==== Proof.lean ====
/-
  A cascaded residual MLP with a tied weight, against its jnp reference, over the extended reals.

  Both programs compute, for x [8192,1024], W [4096,1024], biases [9,4096], alpha, beta [8,4096] and bias_last [1024],
      h(r,e)   = Σ_k x(r,k) · W(e,k),
      z₀       = β₀ · (h + b₀),   z_{n+1} = β_{n+1} · (h + b_{n+1}) + α_n · max(z_n, 0)  (n = 0 … 6),   zf = α₇ · max(z₇, 0)
                 (all at (r,e), with column e of the three tables),
      out(r,q) = Σ_e zf(r,e) · W(e,q) + bias_last(q).
  The kernel walks 16 blocks of 512 rows; in each it narrows x, W and zf to bf16 (no change of value on the extended
  reals), takes both products into a zero accumulator and broadcasts table rows over the tile. The reference does the same
  on whole arrays with einsums and relu. Every add, multiply and maximum has its operands in the same order on both sides and
  the only literal is 0, so at each entry the two results are the same term: no algebraic law, and no use of the inputs'
  finiteness, is needed. What is proved is that each side's result array IS that formula of the arguments, entry by entry
  (Cascade: the formula; KernelReads, KernelBody: the body's store at an entry; KernelValue, KernelRun: the blocks tile the
  array; RefReads: the reference's stages at an entry).
-/
import proofs.«100087_j86122684220072_1_alg».proof.Defs
import proofs.«100087_j86122684220072_1_alg».proof.Proof.Gen.Kernel
import proofs.«100087_j86122684220072_1_alg».proof.Proof.Gen.Kernel.Skeleton
import proofs.«100087_j86122684220072_1_alg».proof.Proof.Gen.Kernel.Launch
import proofs.«100087_j86122684220072_1_alg».proof.Proof.Gen.Kernel.Points
import proofs.«100087_j86122684220072_1_alg».proof.Proof.Gen.Kernel.Frame
import proofs.«100087_j86122684220072_1_alg».proof.Proof.Gen.KernelIdeal
import proofs.«100087_j86122684220072_1_alg».proof.Proof.Gen.KernelIdeal.Skeleton
import proofs.«100087_j86122684220072_1_alg».proof.Proof.Gen.KernelIdeal.Launch
import proofs.«100087_j86122684220072_1_alg».proof.Proof.Gen.KernelIdeal.Points
import proofs.«100087_j86122684220072_1_alg».proof.Proof.Gen.KernelIdeal.Frame
import proofs.«100087_j86122684220072_1_alg».proof.Proof.Gen.ReferenceIdeal
import proofs.«100087_j86122684220072_1_alg».proof.Proof.Gen.Pre_finite_inputs
import proofs.«100087_j86122684220072_1_alg».proof.Proof.Gen.KernelIdeal.Value
import proofs.«100087_j86122684220072_1_alg».proof.Proof.Gen.ReferenceIdeal.Run
import proofs.«100087_j86122684220072_1_alg».proof.Proof.Gen.ReferenceIdeal.Read
import proofs.«100087_j86122684220072_1_alg».proof.Proof.KernelRun
import proofs.«100087_j86122684220072_1_alg».proof.Proof.RefReads
import Idealize.ShloMosaic.Adequacy
import Idealize.ShloMosaic.Init

noncomputable section

namespace Cert.Proof

open Idealize.ShloMosaic Idealize.SL.Sem Idealize.ShloMosaic.ValueIdx

/-- The word-level kernel terminates without a fault and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: it runs, and writes none of its arguments. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The reference's result array as one function of its arguments: the cascade formula, entry by entry. -/
theorem reference_result (x0 : Vec Ideal Cert.ReferenceIdeal.S8192x1024 .f32) (x1 : Vec Ideal Cert.ReferenceIdeal.S4096x1024 .f32)
    (x2 : Vec Ideal Cert.ReferenceIdeal.S9x4096 .f32) (x3 : Vec Ideal Cert.ReferenceIdeal.S1024 .f32)
    (x4 x5 : Vec Ideal Cert.ReferenceIdeal.S8x4096 .f32) :
    Cert.ReferenceIdeal.Read.val_main_v139 (F := Ideal) x0 x1 x2 x3 x4 x5
      = fun i => Cert.Cascade.out x0 x1 x2 x4 x5 (fun c => x3 (ix1 c)) (i 0) (i 1) := by
  funext i
  obtain ⟨r, q, rfl⟩ : ∃ (r : Fin 8192) (q : Fin 1024), i = ix2 r q := ⟨i 0, i 1, eq_ix2 i⟩
  exact Cert.ReferenceIdeal.Rows.result_apply x0 x1 x2 x3 x4 x5 r q

/-- From memories that agree on the six arguments both programs end with the cascade formula of those arguments in
    their result arrays: the kernel by its 16 row blocks, the reference stage by stage. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v139_eq, h0, h1, h2, h3, h4, h5]
  exact reference_result _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
